-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v0)) (v4 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v0) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S1024x4096 : Shape := ⟨2, ![1024, 4096]⟩
abbrev S64x1024 : Shape := ⟨2, ![64, 1024]⟩
abbrev S4096 : Shape := ⟨1, ![4096]⟩
abbrev S1024 : Shape := ⟨1, ![1024]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S64x1024 : S_.BroadcastsInDim S64x1024 (![] : Fin 0 → Fin S64x1024.rank)
  reducesTo_S64x1024_S_d0_1 : S64x1024.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S64x4096 .f32) (main_arg1 : FVec F S1024x4096 .f32) (main_arg2 : FVec F S64x1024 .f32) (main_arg3 : FVec F S4096 .f32) (main_arg4 : FVec F S1024 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S64x4096 : Shape := ⟨2, ![64, 4096]⟩
abbrev S1024x4096 : Shape := ⟨2, ![1024, 4096]⟩
abbrev S64x1024 : Shape := ⟨2, ![64, 1024]⟩
abbrev S4096 : Shape := ⟨1, ![4096]⟩
abbrev S1024 : Shape := ⟨1, ![1024]⟩
abbrev S1x4096 : Shape := ⟨2, ![1, 4096]⟩
abbrev S128x4096 : Shape := ⟨2, ![128, 4096]⟩
abbrev S64x128 : Shape := ⟨2, ![64, 128]⟩
abbrev S128 : Shape := ⟨1, ![128]⟩
abbrev S1x128 : Shape := ⟨2, ![1, 128]⟩

abbrev nBuf : Space → Nat
  | .hbm => 10
  | .vmem => 19
  | .smem => 0
  | _ => 0

abbrev bufTy : (tb : Table) → Fin (tcTables nBuf tb) → BufTy
  | .hbm, ⟨0, _⟩ => ⟨S64x4096, .f32⟩
  | .hbm, ⟨1, _⟩ => ⟨S1024x4096, .f32⟩
  | .hbm, ⟨2, _⟩ => ⟨S64x1024, .f32⟩
  | .hbm, ⟨3, _⟩ => ⟨S4096, .f32⟩
  | .hbm, ⟨4, _⟩ => ⟨S1024, .f32⟩
  | .hbm, ⟨5, _⟩ => ⟨S64x4096, .f32⟩
  | .hbm, ⟨6, _⟩ => ⟨S64x1024, .f32⟩
  | .hbm, ⟨7, _⟩ => ⟨S64x1024, .f32⟩
  | .hbm, ⟨8, _⟩ => ⟨S1024x4096, .f32⟩
  | .hbm, ⟨9, _⟩ => ⟨S64x1024, .f32⟩
  | .local _ .vmem, ⟨0, _⟩ => ⟨S64x4096, .f32⟩
  | .local _ .vmem, ⟨1, _⟩ => ⟨S4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S128x4096, .f32⟩
  | .local _ .vmem, ⟨6, _⟩ => ⟨S128x4096, .f32⟩
  | .local _ .vmem, ⟨7, _⟩ => ⟨S64x128, .f32⟩
  | .local _ .vmem, ⟨8, _⟩ => ⟨S64x128, .f32⟩
  | .local _ .vmem, ⟨9, _⟩ => ⟨S128, .f32⟩
  | .local _ .vmem, ⟨10, _⟩ => ⟨S128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S128x4096, .f32⟩
  | .local _ .vmem, ⟨16, _⟩ => ⟨S128x4096, .f32⟩
  | .local _ .vmem, ⟨17, _⟩ => ⟨S64x128, .f32⟩
  | .local _ .vmem, ⟨18, _⟩ => ⟨S64x128, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 1 → Nat :=
  let arg0 : BitVec 32 := BitVec.ofNat 32 (i 0).val
  let c0_i32 : BitVec 32 := 0#32
  ![arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S64x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S64x4096_S64x4096_0_0 : ∀ a, (![0, 0] : Fin 2 → Nat) a + S64x4096.size a ≤ S64x4096.size a
  h_S64x4096 : 0 < S64x4096.numel
  inb_S4096_S4096_0 : ∀ a, (![0] : Fin 1 → Nat) a + S4096.size a ≤ S4096.size a
  h_S4096 : 0 < S4096.numel
  shapeCasts_S4096_S1x4096 : S4096.ShapeCasts S1x4096
  shapeCasts_S1x4096_S1x4096 : S1x4096.ShapeCasts S1x4096
  broadcasts_S1x4096_S64x4096 : S1x4096.Broadcasts S64x4096
  inb_S128x4096_S128x4096_0_0 : ∀ a, (![0, 0] : Fin 2 → Nat) a + S128x4096.size a ≤ S128x4096.size a
  h_S128x4096 : 0 < S128x4096.numel
  inb_S64x128_S64x128_0_0 : ∀ a, (![0, 0] : Fin 2 → Nat) a + S64x128.size a ≤ S64x128.size a
  h_S64x128 : 0 < S64x128.numel
  natLt_1_32 : 1 < 32
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S64x128 : S1x128.Broadcasts S64x128
  shapeCasts_S64x4096_S64x4096 : S64x4096.ShapeCasts S64x4096
  bitsLt_bf16_f32 : FTy.bits .bf16 < FTy.bits .f32
  dot_S64x4096_S128x4096_S64x128_1_1_0_0_n_n_wf : DotDims.WF S64x4096 S128x4096 S64x128 [1] [1] [0] [0] [] []
  dot_S64x128_S64x4096_S128x4096_0_0_1_1_n_n_wf : DotDims.WF S64x128 S64x4096 S128x4096 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S64x4096.size a
  hwx1_0 : ∀ i : grid1.Coords, EltTy.bits .f32 = 32 ∨ (Rect.block (s := S64x4096) S64x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x4096.size a ≤ S64x4096.size a
  hwx1_1 : ∀ i : grid1.Coords, EltTy.bits .f32 = 32 ∨ (Rect.block (s := S64x4096) S64x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S1024x4096.size a
  hwx1_2 : ∀ i : grid1.Coords, EltTy.bits .f32 = 32 ∨ (Rect.block (s := S1024x4096) S128x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x1024.size a
  hwx1_3 : ∀ i : grid1.Coords, EltTy.bits .f32 = 32 ∨ (Rect.block (s := S64x1024) S64x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S1024.size a
  hwx1_4 : ∀ i : grid1.Coords, EltTy.bits .f32 = 32 ∨ (Rect.block (s := S1024) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x1024.size a
  hwx1_5 : ∀ i : grid1.Coords, EltTy.bits .f32 = 32 ∨ (Rect.block (s := S64x1024) S64x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S64x1024.size a
  hwx1_6 : ∀ i : grid1.Coords, EltTy.bits .f32 = 32 ∨ (Rect.block (s := S64x1024) S64x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x4096.size a ≤ S1024x4096.size a
  hwx1_7 : ∀ i : grid1.Coords, EltTy.bits .f32 = 32 ∨ (Rect.block (s := S1024x4096) S128x4096.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S64x128.size a ≤ S64x1024.size a
  hwx1_8 : ∀ i : grid1.Coords, EltTy.bits .f32 = 32 ∨ (Rect.block (s := S64x1024) S64x128.size (cc1_transform_8 i) (hinb1_8 i)).WholeWords (EltTy.packing .f32)

variable [Facts₀]

def dot_S64x4096_S128x4096_S64x128_1_1_0_0_n_n : DotDims S64x4096 S128x4096 S64x128 where
  lhsContracting := [1]
  rhsContracting := [1]
  lhsNonContracting := [0]
  rhsNonContracting := [0]
  lhsBatch := []
  rhsBatch := []
  wf := dot_S64x4096_S128x4096_S64x128_1_1_0_0_n_n_wf
def dot_S64x128_S64x4096_S128x4096_0_0_1_1_n_n : DotDims S64x128 S64x4096 S128x4096 where
  lhsContracting := [0]
  rhsContracting := [0]
  lhsNonContracting := [1]
  rhsNonContracting := [1]
  lhsBatch := []
  rhsBatch := []
  wf := dot_S64x128_S64x4096_S128x4096_0_0_1_1_n_n_wf

abbrev win0_0 : Pipeline.Window sig grid0 :=
  Pipeline.Window.ofSpec (Memref.whole main_arg0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S64x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S64x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_0) S64x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_1) S64x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1_2) S128x4096.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v1_3) S64x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S64x4096 : Shape := ⟨2, ![64, 4096]⟩
abbrev S1024x4096 : Shape := ⟨2, ![1024, 4096]⟩
abbrev S64x1024 : Shape := ⟨2, ![64, 1024]⟩
abbrev S4096 : Shape := ⟨1, ![4096]⟩
abbrev S1024 : Shape := ⟨1, ![1024]⟩
abbrev S4096x1024 : Shape := ⟨2, ![4096, 1024]⟩
abbrev S_ : Shape := ⟨0, ![]⟩
abbrev S1x4096 : Shape := ⟨2, ![1, 4096]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S1024x4096, .f32⟩
  | .hbm, ⟨2, _⟩ => ⟨S64x1024, .f32⟩
  | .hbm, ⟨3, _⟩ => ⟨S4096, .f32⟩
  | .hbm, ⟨4, _⟩ => ⟨S1024, .f32⟩
  | .hbm, ⟨5, _⟩ => ⟨S4096x1024, .f32⟩
  | .hbm, ⟨6, _⟩ => ⟨S64x1024, .f32⟩
  | .hbm, ⟨7, _⟩ => ⟨S_, .f32⟩
  | .hbm, ⟨8, _⟩ => ⟨S64x1024, .f32⟩
  | .hbm, ⟨9, _⟩ => ⟨S64x1024, .f32⟩
  | .hbm, ⟨10, _⟩ => ⟨S64x1024, .f32⟩
  | .hbm, ⟨11, _⟩ => ⟨S_, .f32⟩
  | .hbm, ⟨12, _⟩ => ⟨S64x1024, .f32⟩
  | .hbm, ⟨13, _⟩ => ⟨S64x1024, .i1⟩
  | .hbm, ⟨14, _⟩ => ⟨S64x1024, .f32⟩
  | .hbm, ⟨15, _⟩ => ⟨S_, .f32⟩
  | .hbm, ⟨16, _⟩ => ⟨S64x1024, .f32⟩
  | .hbm, ⟨17, _⟩ => ⟨S64x1024, .i1⟩
  | .hbm, ⟨18, _⟩ => ⟨S_, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S1x4096, .f32⟩
  | .hbm, ⟨26, _⟩ => ⟨S64x4096, .f32⟩
  | .hbm, ⟨27, _⟩ => ⟨S64x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64x4096, .f32⟩
  | .hbm, ⟨32, _⟩ => ⟨S64x4096, .f32⟩
  | .hbm, ⟨33, _⟩ => ⟨S_, .f32⟩
  | .hbm, ⟨34, _⟩ => ⟨S64x4096, .f32⟩
  | .hbm, ⟨35, _⟩ => ⟨S64x4096, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1x1024, .f32⟩
  | .hbm, ⟨40, _⟩ => ⟨S64x1024, .f32⟩
  | .hbm, ⟨41, _⟩ => ⟨S64x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S64x1024, .f32⟩
  | .hbm, ⟨46, _⟩ => ⟨S64x1024, .f32⟩
  | .hbm, ⟨47, _⟩ => ⟨S_, .f32⟩
  | .hbm, ⟨48, _⟩ => ⟨S64x1024, .f32⟩
  | .hbm, ⟨49, _⟩ => ⟨S64x1024, .f32⟩
  | .hbm, ⟨50, _⟩ => ⟨S1024x4096, .f32⟩
  | .hbm, ⟨51, _⟩ => ⟨S_, .f32⟩
  | .hbm, ⟨52, _⟩ => ⟨S1024x4096, .f32⟩
  | .hbm, ⟨53, _⟩ => ⟨S1024x4096, .f32⟩
  | .hbm, ⟨54, _⟩ => ⟨S1024x4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S1024x4096, .f32⟩
  | .hbm, ⟨59, _⟩ => ⟨S1024x4096, .f32⟩
  | .hbm, ⟨60, _⟩ => ⟨S_, .f32⟩
  | .hbm, ⟨61, _⟩ => ⟨S1024x4096, .f32⟩
  | .hbm, ⟨62, _⟩ => ⟨S1024x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_cst_8 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v22 : Ref sig .tc := ⟨.hbm, 49, rfl⟩
abbrev main_v23 : Ref sig .tc := ⟨.hbm, 50, rfl⟩
abbrev main_cst_9 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_10 : Ref sig .tc := ⟨.hbm, 55, rfl⟩
abbrev main_cst_11 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v27 : Ref sig .tc := ⟨.hbm, 62, rfl⟩

abbrev nD : Nat := 1
abbrev τ : Topo := Topo.v7x

variable {F : FTy → Type} [FloatOps F]

class Facts₀ : Prop where
  transposes_S1024x4096_S4096x1024_1_0 : S1024x4096.Transposes [1, 0] S4096x1024
  bcast_S_S64x1024 : S_.BroadcastsInDim S64x1024 (![] : Fin 0 → Fin S64x1024.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  bcast_S_S64x4096 : S_.BroadcastsInDim S64x4096 (![] : Fin 0 → Fin S64x4096.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S1024x4096 : S_.BroadcastsInDim S1024x4096 (![] : Fin 0 → Fin S1024x4096.rank)
  dot_S64x4096_S4096x1024_S64x1024_1_0_0_1_n_n_wf : DotDims.WF S64x4096 S4096x1024 S64x1024 [1] [0] [0] [1] [] []
  dot_S64x1024_S64x4096_S1024x4096_0_0_1_1_n_n_wf : DotDims.WF S64x1024 S64x4096 S1024x4096 [0] [0] [1] [1] [] []

variable [Facts₀]

def dot_S64x4096_S4096x1024_S64x1024_1_0_0_1_n_n : DotDims S64x4096 S4096x1024 S64x1024 where
  lhsContracting := [1]
  rhsContracting := [0]
  lhsNonContracting := [0]
  rhsNonContracting := [1]
  lhsBatch := []
  rhsBatch := []
  wf := dot_S64x4096_S4096x1024_S64x1024_1_0_0_1_n_n_wf
def dot_S64x1024_S64x4096_S1024x4096_0_0_1_1_n_n : DotDims S64x1024 S64x4096 S1024x4096 where
  lhsContracting := [0]
  rhsContracting := [0]
  lhsNonContracting := [1]
  rhsNonContracting := [1]
  lhsBatch := []
  rhsBatch := []
  wf := dot_S64x1024_S64x4096_S1024x4096_0_0_1_1_n_n_wf

class Facts : Prop extends Facts₀ where

variable [Facts]
-- ==== Proof.Spec.lean ====
/-
  One step of a leaky integrate-and-fire layer with a trace-based plasticity update, as functions of the five argument
  arrays, index by index, over the extended reals.

  Inputs: the input currents `x` (64 × 4096, batch × inputs), the weights `w` (1024 × 4096, outputs × inputs), the
  membrane potentials `mem` (64 × 1024, batch × outputs), the presynaptic trace `tpre` (4096) and the postsynaptic
  trace `tpost` (1024).

  * the potential after integration: `mem · 0.98 + ∑ₖ x(b,k) · w(o,k)`;
  * a neuron fires where that potential exceeds `0.4`; the spike array holds the firing bit as a number;
  * where a neuron fired its potential is reset to zero;
  * each trace decays by `0.85`, takes in its side's activity, and is clipped into `[0, 1]`;
  * the weights move by `0.001` times the batch sum of post-trace × pre-trace, clipped into `[-0.1, 0.5]`.

  The decimal constants are kept as the single-precision words both programs print, so they are never evaluated.
-/
import Idealize.ShloMosaic.PureOps.Ideal
import Idealize.ShloMosaic.Lib.ValueIdx

noncomputable section

namespace Cert.Synapse

open Idealize.ShloMosaic Idealize.ShloMosaic.ValueIdx
open scoped BigOperators

/-- batch × inputs -/
abbrev SX : Shape := ⟨2, ![64, 4096]⟩
/-- outputs × inputs -/
abbrev SW : Shape := ⟨2, ![1024, 4096]⟩
/-- batch × outputs -/
abbrev SM : Shape := ⟨2, ![64, 1024]⟩
/-- inputs -/
abbrev SPre : Shape := ⟨1, ![4096]⟩
/-- outputs -/
abbrev SPost : Shape := ⟨1, ![1024]⟩

/-- the leak factor 0.98, the threshold 0.4, the trace decay 0.85, the learning rate 0.001, the weight bounds -0.1 and 0.5,
    and zero and one, each as its single-precision word -/
abbrev leak : EReal := Ideal.ofBits .f32 0x3F7AE148#32
abbrev threshold : EReal := Ideal.ofBits .f32 0x3ECCCCCD#32
abbrev decay : EReal := Ideal.ofBits .f32 0x3F59999A#32
abbrev rate : EReal := Ideal.ofBits .f32 0x3A83126F#32
abbrev wLow : EReal := Ideal.ofBits .f32 0xBDCCCCCD#32
abbrev wHigh : EReal := Ideal.ofBits .f32 0x3F000000#32
abbrev zeroW : EReal := Ideal.ofBits .f32 0x00000000#32
abbrev oneW : EReal := Ideal.ofBits .f32 0x3F800000#32

/-- A trace value clipped into `[0, 1]`. -/
def clip01 (v : EReal) : EReal := min oneW (max zeroW v)

/-- The presynaptic trace after the step: the old trace (one row, the same for every batch entry) decayed, plus the input. -/
def preTrace (x : FVec Ideal SX .f32) (tpre : FVec Ideal SPre .f32) : FVec Ideal SX .f32 :=
  fun i => clip01 (tpre (ix1 (i 1)) * decay + x i)

/-- The membrane potential after integrating the weighted input. -/
def potential (x : FVec Ideal SX .f32) (w : FVec Ideal SW .f32) (mem : FVec Ideal SM .f32) : FVec Ideal SM .f32 :=
  fun i => mem i * leak + ∑ k : Fin 4096, x (ix2 (i 0) k) * w (ix2 (i 1) k)

/-- Whether the neuron fires: the potential exceeds the threshold. -/
def fires (x : FVec Ideal SX .f32) (w : FVec Ideal SW .f32) (mem : FVec Ideal SM .f32) : IVec SM 1 :=
  fun i => Ideal.cmp .ogt (potential x w mem i) threshold

/-- The spikes: the firing bit as a number, zero or one. -/
def spikes (x : FVec Ideal SX .f32) (w : FVec Ideal SW .f32) (mem : FVec Ideal SM .f32) : FVec Ideal SM .f32 :=
  fun i => (((fires x w mem i).toNat : ℝ) : EReal)

/-- The potential after the reset: zero where the neuron spiked, the integrated potential elsewhere. -/
def potentialAfter (x : FVec Ideal SX .f32) (w : FVec Ideal SW .f32) (mem : FVec Ideal SM .f32) : FVec Ideal SM .f32 :=
  fun i => Scalar.select (Ideal.cmp .ogt (spikes x w mem i) zeroW) zeroW (potential x w mem i)

/-- The postsynaptic trace after the step: the old trace (one row per batch entry) decayed, plus the spikes. -/
def postTrace (x : FVec Ideal SX .f32) (w : FVec Ideal SW .f32) (mem : FVec Ideal SM .f32) (tpost : FVec Ideal SPost .f32) :
    FVec Ideal SM .f32 :=
  fun i => clip01 (tpost (ix1 (i 1)) * decay + spikes x w mem i)

/-- The weights after the step, from a presynaptic trace array `tp` already computed: the batch sum of post-trace × pre-trace
    scaled by the learning rate, added, and clipped. -/
def weightFrom (tp : FVec Ideal SX .f32) (x : FVec Ideal SX .f32) (w : FVec Ideal SW .f32) (mem : FVec Ideal SM .f32)
    (tpost : FVec Ideal SPost .f32) : FVec Ideal SW .f32 :=
  fun i => min wHigh (max wLow (w i + rate * ∑ b : Fin 64, postTrace x w mem tpost (ix2 b (i 0)) * tp (ix2 b (i 1))))

/-- The weights after the step, from the arguments. -/
def weightAfter (x : FVec Ideal SX .f32) (w : FVec Ideal SW .f32) (mem : FVec Ideal SM .f32) (tpre : FVec Ideal SPre .f32)
    (tpost : FVec Ideal SPost .f32) : FVec Ideal SW .f32 :=
  weightFrom (preTrace x tpre) x w mem tpost

/-! ## Two scalar facts -/

/-- A single bit widened to a word without sign and read back signed is the bit's own number. -/
theorem toInt_setWidth_bit (b : BitVec 1) : ((b.setWidth 32).toInt : ℤ) = (b.toNat : ℤ) := by
  revert b; decide

/-- So converting the widened bit as a signed integer gives the same real as converting the bit unsigned. -/
theorem signed_widened_bit (b : BitVec 1) : (((b.setWidth 32).toInt : ℝ) : EReal) = ((b.toNat : ℝ) : EReal) := by
  have h := toInt_setWidth_bit b
  have h' : ((b.setWidth 32).toInt : ℝ) = (b.toNat : ℝ) := by exact_mod_cast h
  rw [h']

end Cert.Synapse

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.LibDotCols.lean ====
/-
  A matrix product that contracts the ROW axis of both operands, read at an index.

  For a `K × A` left operand and a `K × B` right operand whose dimension numbers contract the first axis of each
  (no batch axes), the contraction index has one coordinate `k : Fin K`, the left operand is read at `(k, p)` and
  the right one at `(k, q)`. So the product at `(p, q)` is `∑ k, f (k, p) · g (k, q)`: column `p` of the left
  operand paired with column `q` of the right one, whatever the sizes. `eq_cols` identifies any record with these
  dimension numbers with the one written out here, `cols`, for which the two operand indices compute.
-/
import Idealize.ShloMosaic.PureOps.Ideal
import Idealize.ShloMosaic.PureOps.Ideal.Laws
import Idealize.ShloMosaic.Lib.ValueIdx

noncomputable section

namespace Cert.LibDotCols

open Idealize.ShloMosaic Idealize.ShloMosaic.ValueIdx
open scoped BigOperators

variable {K A B : Nat}

/-- Dimension numbers `[0] × [0]`, free axes `[1]` and `[1]`, no batch: `K×A` by `K×B` gives `A×B`. -/
def cols (K A B : Nat) : DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap (0 : Fin 2) 1 [],
    by simpa [List.finRange] using List.Perm.swap (0 : Fin 2) 1 [],
    rfl, Nat.two_pos, fun b => by
      match b with
      | ⟨0, _⟩ => rfl
      | ⟨1, _⟩ => rfl⟩

/-- Any record with these six lists is `cols`. -/
theorem eq_cols (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = []) : d = cols K A B := by
  cases d
  simp only at hlc hrc hln hrn hlb hrb
  subst hlc hrc hln hrn hlb hrb
  rfl

/-- The contraction shape has one axis … -/
theorem cols_rank : (cols K A B).contr.rank = 1 := rfl
/-- … of extent `K`. -/
theorem cols_size : (cols K A B).contr.size ⟨0, by rw [cols_rank]; exact Nat.one_pos⟩ = K := rfl

/-- At result index `(p, q)` and contraction coordinate `k` the left operand is read at `(k, p)`. -/
theorem cols_lhs (p : Fin A) (q : Fin B) (k : Fin K) :
    (cols K A B).lhsIdx (ix2 p q) ((contrEquiv1 (cols K A B) K cols_rank cols_size).symm k) = ix2 k p := by
  funext a
  apply Fin.ext
  match a with
  | ⟨0, _⟩ => rfl
  | ⟨1, _⟩ => rfl

/-- At result index `(p, q)` and contraction coordinate `k` the right operand is read at `(k, q)`. -/
theorem cols_rhs (p : Fin A) (q : Fin B) (k : Fin K) :
    (cols K A B).rhsIdx (ix2 p q) ((contrEquiv1 (cols K A B) K cols_rank cols_size).symm k) = ix2 k q := by
  funext a
  apply Fin.ext
  match a with
  | ⟨0, _⟩ => rfl
  | ⟨1, _⟩ => rfl

/-- The sum over the contraction index is the sum over `k : Fin K` of `f (k, p) · g (k, q)`. -/
theorem cols_sum (f : (⟨2, ![K, A]⟩ : Shape).Idx → EReal) (g : (⟨2, ![K, B]⟩ : Shape).Idx → EReal) (p : Fin A) (q : Fin B) :
    ∑ k : (cols K A B).contr.Idx, f ((cols K A B).lhsIdx (ix2 p q) k) * g ((cols K A B).rhsIdx (ix2 p q) k)
      = ∑ k : Fin K, f (ix2 k p) * g (ix2 k q) := by
  rw [← Equiv.sum_comp (contrEquiv1 (cols K A B) K cols_rank cols_size).symm]
  refine Finset.sum_congr rfl fun k _ => ?_
  rw [cols_lhs, cols_rhs]

/-- A block product into the zero accumulator, at `(p, q)`: `∑ k, lhs (k, p) · rhs (k, q)`. -/
theorem matmul_zero_apply (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 k p) * rhs (ix2 k q) := by
  rw [eq_cols d hlc hrc hln hrn hlb hrb, Ideal.matmul_constant_zero_apply]
  exact cols_sum lhs rhs p q

/-- The same product added to an accumulator `acc`, at `(p, q)`: `acc (p, q) + ∑ k, lhs (k, p) · rhs (k, q)`. -/
theorem matmul_acc_apply (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ .f32) (rhs : FVec Ideal ⟨2, ![K, B]⟩ .f32)
    (acc : FVec Ideal ⟨2, ![A, B]⟩ .f32) (p : Fin A) (q : Fin B) :
    FloatOps.matmul d prec lhs rhs acc (ix2 p q) = acc (ix2 p q) + ∑ k : Fin K, lhs (ix2 k p) * rhs (ix2 k q) := by
  rw [eq_cols d hlc hrc hln hrn hlb hrb, Ideal.matmul_apply, cols_sum lhs rhs p q]

/-- The host's product at `(p, q)`, whatever its schedule key: the same sum. -/
theorem dotGeneral_apply (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (sched : HostSchedule) (lhs : FVec Ideal ⟨2, ![K, A]⟩ .f32) (rhs : FVec Ideal ⟨2, ![K, B]⟩ .f32)
    (p : Fin A) (q : Fin B) :
    FloatOps.dotGeneral d prec sched lhs rhs (ix2 p q) = ∑ k : Fin K, lhs (ix2 k p) * rhs (ix2 k q) := by
  rw [eq_cols d hlc hrc hln hrn hlb hrb, Ideal.dotGeneral_apply]
  exact cols_sum lhs rhs p q

end Cert.LibDotCols

end
-- ==== Proof.LibDotColsFormats.lean ====
/-
  A matrix product that contracts the ROW axis of both operands, read at an index, for operands of any float formats.

  For a `K × A` left operand and a `K × B` right operand whose dimension numbers contract the first axis of each (no
  batch axes), the product into a zero accumulator at `(p, q)` is `∑ k, lhs (k, p) · rhs (k, q)`. At the ideal values
  every float format is the extended reals, so the statement holds whatever the two operands' formats are (a product of
  half-precision operands accumulated in single precision, for one). The record with these dimension numbers and the
  sum over its contraction index are those of the single-precision statement this file builds on.
-/
import proofs.«172224_j65652870086857_1_alg».proof.Proof.LibDotCols
import Idealize.ShloMosaic.PureOps.Ideal
import Idealize.ShloMosaic.PureOps.Ideal.Laws
import Idealize.ShloMosaic.Lib.ValueIdx

noncomputable section

namespace Cert.LibDotColsFormats

open Idealize.ShloMosaic Idealize.ShloMosaic.ValueIdx
open scoped BigOperators

variable {K A B : Nat}

/-- A product into the zero accumulator contracting the first axis of both operands, at `(p, q)`:
    `∑ k, lhs (k, p) · rhs (k, q)`, for operands of any float formats. -/
theorem matmul_zero_apply {φ₁ φ₂ : FTy} (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 k p) * rhs (ix2 k q) := by
  rw [Cert.LibDotCols.eq_cols d hlc hrc hln hrn hlb hrb, Ideal.matmul_constant_zero_apply]
  exact Cert.LibDotCols.cols_sum lhs rhs p q

/-- The same product added to an accumulator `acc`, at `(p, q)`: `acc (p, q) + ∑ k, lhs (k, p) · rhs (k, q)`. -/
theorem matmul_acc_apply {φ₁ φ₂ : FTy} (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ φ₁) (rhs : FVec Ideal ⟨2, ![K, B]⟩ φ₂)
    (acc : FVec Ideal ⟨2, ![A, B]⟩ .f32) (p : Fin A) (q : Fin B) :
    FloatOps.matmul d prec lhs rhs acc (ix2 p q) = acc (ix2 p q) + ∑ k : Fin K, lhs (ix2 k p) * rhs (ix2 k q) := by
  rw [Cert.LibDotCols.eq_cols d hlc hrc hln hrn hlb hrb, Ideal.matmul_apply, Cert.LibDotCols.cols_sum lhs rhs p q]

end Cert.LibDotColsFormats

end
-- ==== Proof.Payload.lean ====
/-
  What each store of the two kernel bodies holds, read at an index, over the extended reals.

  The first body stores the clipped presynaptic trace of its whole block. The second body, at one tile of 128 output
  neurons, stores four values: the spikes, the potential after the reset, the clipped postsynaptic trace and the updated
  weight rows of the tile. Each is read here at a pair of coordinates as the arithmetic of the blocks the body loaded:
  the two matrix products as plain sums over the contracted coordinate, the row broadcasts as reads of the one row, the
  changes of float format as the identity.
-/
import proofs.«172224_j65652870086857_1_alg».proof.Proof.Gen.KernelIdeal.Skeleton
import proofs.«172224_j65652870086857_1_alg».proof.Proof.Spec
import proofs.«172224_j65652870086857_1_alg».proof.Proof.LibDotFormats
import proofs.«172224_j65652870086857_1_alg».proof.Proof.LibDotColsFormats
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.Synapse
open Idealize.ShloMosaic Idealize.ShloMosaic.ValueIdx
open scoped BigOperators

/-- The first body's store at `(p, q)`: the old presynaptic trace at `q` decayed, plus the input at `(p, q)`, clipped. -/
theorem preTrace_at (v0 : FVec Ideal S64x4096 .f32) (v1 : FVec Ideal S4096 .f32) (p : Fin 64) (q : Fin 4096) :
    k0_pay1 (F := Ideal) v0 v1 (ix2 p q) = clip01 (v1 (ix1 q) * decay + v0 (ix2 p q)) := by
  unfold k0_pay1
  simp only [minimumf_apply, maximumf_apply, addf_apply, mulf_apply, broadcast_apply]
  rw [broadcastTo_1b_ab_apply, shapeCast_self, shapeCast_a_1a_apply]
  rfl

/-- The integrated potential of the tile at `(p, q)`: the membrane block leaked, plus the input row `p` against the weight
    row `q` of the tile. -/
theorem potential_at (v0 : FVec Ideal S64x4096 .f32) (v1 : FVec Ideal S128x4096 .f32) (v3 : FVec Ideal S64x128 .f32)
    (p : Fin 64) (q : Fin 128) :
    k1_pay1 (F := Ideal) v0 v1 v3 (ix2 p q) = v3 (ix2 p q) * leak + ∑ k : Fin 4096, v0 (ix2 p k) * v1 (ix2 q k) := by
  unfold k1_pay1
  simp only [matmul, addf_apply, mulf_apply, broadcast_apply]
  rw [Cert.LibDotFormats.matmul_rows_zero_apply _ rfl rfl rfl rfl rfl rfl]
  rfl

/-- The tile's spikes at `(p, q)`: the bit "the integrated potential exceeds the threshold", widened to a word and converted
    as a signed integer, is the bit's own number. -/
theorem spikes_at (v0 : FVec Ideal S64x4096 .f32) (v1 : FVec Ideal S128x4096 .f32) (v3 : FVec Ideal S64x128 .f32)
    (p : Fin 64) (q : Fin 128) :
    k1_pay2 (F := Ideal) v0 v1 v3 (ix2 p q)
      = (((Ideal.cmp .ogt (k1_pay1 (F := Ideal) v0 v1 v3 (ix2 p q)) threshold).toNat : ℝ) : EReal) := by
  unfold k1_pay2
  exact signed_widened_bit _

/-- The tile's potential after the reset at `(p, q)`: zero where the spike is positive, the integrated potential elsewhere. -/
theorem reset_at (v0 : FVec Ideal S64x4096 .f32) (v1 : FVec Ideal S128x4096 .f32) (v3 : FVec Ideal S64x128 .f32)
    (p : Fin 64) (q : Fin 128) :
    k1_pay3 (F := Ideal) v0 v1 v3 (ix2 p q)
      = Scalar.select (Ideal.cmp .ogt (k1_pay2 (F := Ideal) v0 v1 v3 (ix2 p q)) zeroW) zeroW (k1_pay1 (F := Ideal) v0 v1 v3 (ix2 p q)) := by
  unfold k1_pay3
  rfl

/-- The tile's postsynaptic trace at `(p, q)`: the old trace at `q` decayed, plus the spike at `(p, q)`, clipped. -/
theorem postTrace_at (v0 : FVec Ideal S64x4096 .f32) (v1 : FVec Ideal S128x4096 .f32) (v3 : FVec Ideal S64x128 .f32)
    (v15 : FVec Ideal S128 .f32) (p : Fin 64) (q : Fin 128) :
    k1_pay4 (F := Ideal) v0 v1 v3 v15 (ix2 p q) = clip01 (v15 (ix1 q) * decay + k1_pay2 (F := Ideal) v0 v1 v3 (ix2 p q)) := by
  unfold k1_pay4
  simp only [minimumf_apply, maximumf_apply, addf_apply, mulf_apply, broadcast_apply]
  rw [broadcastTo_1b_ab_apply, shapeCast_self, shapeCast_a_1a_apply]
  rfl

/-- The tile's updated weights at `(q, k)`: the weight plus the batch sum of post-trace × pre-trace times the learning rate,
    clipped. Both operands of the product pass through a narrower float format, which changes nothing here. -/
theorem weight_at (v0 : FVec Ideal S64x4096 .f32) (v1 : FVec Ideal S128x4096 .f32) (v3 : FVec Ideal S64x128 .f32)
    (v15 : FVec Ideal S128 .f32) (v26 : FVec Ideal S64x4096 .f32) (q : Fin 128) (k : Fin 4096) :
    k1_pay5 (F := Ideal) v0 v1 v3 v15 v26 (ix2 q k)
      = min wHigh (max wLow (v1 (ix2 q k) + (∑ b : Fin 64, k1_pay4 (F := Ideal) v0 v1 v3 v15 (ix2 b q) * v26 (ix2 b k)) * rate)) := by
  unfold k1_pay5
  simp only [matmul, minimumf_apply, maximumf_apply, addf_apply, mulf_apply, broadcast_apply]
  rw [Cert.LibDotColsFormats.matmul_zero_apply _ rfl rfl rfl rfl rfl rfl]
  simp only [truncf_apply, shapeCast_self]
  rfl

end Cert.KernelIdeal.Pay

end
-- ==== Proof.Region0Value.lean ====
/-
  The first kernel region, read as a value: whatever the arrays hold when the region is entered, the region leaves in its
  output array the clipped presynaptic trace of the input array and the trace vector it was given.

  The region's grid has one point and every window's block is its whole array, so the point's write-back is the whole
  result and that one block covers the array.
-/
import proofs.«172224_j65652870086857_1_alg».proof.Proof.Gen.KernelIdeal.Frame
import proofs.«172224_j65652870086857_1_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Synapse

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- Every window of the region sits at block index zero on every axis, at the grid's one point. -/
theorem index_facts : ∀ t : Fin cfg0.N, win0_0.index t (0 : Fin 2) = 0 ∧ win0_0.index t (1 : Fin 2) = 0
    ∧ win0_1.index t (0 : Fin 1) = 0
    ∧ win0_2.index t (0 : Fin 2) = 0 ∧ win0_2.index t (1 : Fin 2) = 0 :=
  (by decide +kernel : ∀ t : Fin grid0.N, _)

/-- The input window's block is the input array. -/
theorem input_at (c : Dev nD) (t : Fin cfg0.N) (p : Fin 64) (q : Fin 4096) :
    (iblk0 V c 0 t : Vec Ideal S64x4096 .f32) (ix2 p q) = (V c main_arg0 : S64x4096.Idx → EReal) (ix2 p q) := by
  obtain ⟨e0, e1, -, -, -⟩ := index_facts t
  unfold iblk0
  rw [View.read_apply]
  show V c main_arg0 _ = V c main_arg0 _
  congr 1
  funext a
  apply Fin.ext
  match a with
  | ⟨0, _⟩ => show win0_0.index t 0 * 64 + 1 * p.val = p.val; rw [e0]; omega
  | ⟨1, _⟩ => show win0_0.index t 1 * 4096 + 1 * q.val = q.val; rw [e1]; omega

/-- The trace window's block is the trace vector. -/
theorem trace_at (c : Dev nD) (t : Fin cfg0.N) (q : Fin 4096) :
    (iblk0 V c 1 t : Vec Ideal S4096 .f32) (ix1 q) = (V c main_arg3 : S4096.Idx → EReal) (ix1 q) := by
  obtain ⟨-, -, e2, -, -⟩ := index_facts t
  unfold iblk0
  rw [View.read_apply]
  show V c main_arg3 _ = V c main_arg3 _
  congr 1
  funext a
  apply Fin.ext
  match a with
  | ⟨0, _⟩ => show win0_1.index t 0 * 4096 + 1 * q.val = q.val; rw [e2]; omega

/-- The output window's block sits at the array's own coordinates. -/
theorem output_at (t : Fin cfg0.N) (p : Fin 64) (q : Fin 4096) :
    ((cfg0.win 2).blk t).view.emb (ix2 p q) = (ix2 p q : S64x4096.Idx) := by
  obtain ⟨-, -, -, e3, e4⟩ := index_facts t
  funext a
  apply Fin.ext
  match a with
  | ⟨0, _⟩ => show win0_2.index t 0 * 64 + 1 * p.val = p.val; rw [e3]; omega
  | ⟨1, _⟩ => show win0_2.index t 1 * 4096 + 1 * q.val = q.val; rw [e4]; omega

/-- What the point writes back is its block of the presynaptic trace of the arrays as the region finds them. -/
theorem flushed_preTrace (c : Dev nD) (t : Fin cfg0.N) (hf : (cfg0.win 2).flush t = true) :
    (dat0 V c).flushed 2 t = ((cfg0.win 2).blk t).view.read (Elt Ideal) (preTrace (V c main_arg0) (V c main_arg3)) := by
  show (cfg0.win 2).cut (grid0.coords t) ((dat0 V c).after 2 t) = _
  rw [after0_2]
  unfold out0_2
  rw [View.canon_unit_zero zero2]
  simp only [View.ld_unit_zero (S := S64x4096) zero2, View.ld_unit_zero (S := S4096) zero1]
  funext j
  obtain ⟨p, q, rfl⟩ : ∃ (p : Fin 64) (q : Fin 4096), j = ix2 p q := ⟨j 0, j 1, eq_ix2 j⟩
  show k0_pay1 (F := Ideal) (iblk0 V c 0 t) (iblk0 V c 1 t) (ix2 p q)
    = preTrace (V c main_arg0) (V c main_arg3) (((cfg0.win 2).blk t).view.emb (ix2 p q))
  rw [output_at t p q]
  refine (Pay.preTrace_at (iblk0 V c 0 t) (iblk0 V c 1 t) p q).trans ?_
  rw [input_at V c t p q, trace_at V c t q]
  rfl

/-- The region's output array after the region: the presynaptic trace, everywhere. -/
theorem final_preTrace (c : Dev nD) :
    (dat0 V c).arrAt 2 cfg0.N = preTrace (V c main_arg0) (V c main_arg3) :=
  (dat0 V c).arrAt_eq_of_cover 2 (preTrace (V c main_arg0) (V c main_arg3)) (flushed_preTrace V c) fun i =>
    ⟨t0_0, flush0_2 t0_0, by
      obtain ⟨-, -, -, e3, e4⟩ := index_facts t0_0
      show i ∈ ((View.whole main_v0).slice (win0_2.rect t0_0)).set
      rw [View.set_slice_whole, Rect.mem_set_unit]
      intro a
      have h0 : (i 0 : Nat) < 64 := (i 0).isLt
      have h1 : (i 1 : Nat) < 4096 := (i 1).isLt
      match a with
      | ⟨0, _⟩ => show win0_2.index t0_0 0 * 64 ≤ (i 0 : Nat) ∧ (i 0 : Nat) < win0_2.index t0_0 0 * 64 + 64
                  rw [e3]; omega
      | ⟨1, _⟩ => show win0_2.index t0_0 1 * 4096 ≤ (i 1 : Nat) ∧ (i 1 : Nat) < win0_2.index t0_0 1 * 4096 + 4096
                  rw [e4]; omega⟩

end Cert.KernelIdeal.Region0

end
-- ==== Proof.Region1Value.lean ====
/-
  The second kernel region, read as a value: whatever the arrays hold when the region is entered, the region leaves in its
  four output arrays the spikes, the potential after the reset, the updated weights and the postsynaptic trace of the
  arrays it was given. The presynaptic trace it multiplies into the weight update is the ARRAY it finds in its second
  window, whatever that array holds.

  The grid has eight points, one per tile of 128 output neurons. At point `t` the weight windows hold rows
  `128 t … 128 t + 127` of their arrays, the membrane, spike and trace windows columns `128 t … 128 t + 127`, the old
  postsynaptic trace entries `128 t … 128 t + 127`, and the input and presynaptic-trace windows their whole arrays.
  Each output entry depends only on its own neuron's row of the weights, so a tile's results are the restriction of the
  whole-array functions to the tile, and the eight tiles cover each output array.
-/
import proofs.«172224_j65652870086857_1_alg».proof.Proof.Gen.KernelIdeal.Frame
import proofs.«172224_j65652870086857_1_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region1

open Cert.KernelIdeal Cert.KernelIdeal.Gen Cert.Synapse

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

theorem point_lt (t : Fin cfg1.N) : t.val < 8 := Nat.lt_of_lt_of_eq t.isLt (show cfg1.N = 8 from N_1)

/-- Neuron `q` of tile `t` among all 1024 output neurons. -/
def neuron (t : Fin cfg1.N) (q : Fin 128) : Fin 1024 :=
  ⟨t.val * 128 + q.val, by have := point_lt t; have := q.isLt; omega⟩

theorem neuron_val (t : Fin cfg1.N) (q : Fin 128) : (neuron t q).val = t.val * 128 + q.val := rfl

/-- The printed index maps, decided over the grid: the whole-array windows stay at block zero, the weight windows move
    along the rows with the point, the membrane, spike and trace windows along the columns. -/
theorem index_facts : ∀ t : Fin cfg1.N,
    (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = t.val)
    ∧ win1_4.index t (0 : Fin 1) = t.val
    ∧ (win1_5.index t (0 : Fin 2) = 0 ∧ win1_5.index t (1 : Fin 2) = t.val)
    ∧ (win1_6.index t (0 : Fin 2) = 0 ∧ win1_6.index t (1 : Fin 2) = t.val)
    ∧ (win1_7.index t (0 : Fin 2) = t.val ∧ win1_7.index t (1 : Fin 2) = 0)
    ∧ (win1_8.index t (0 : Fin 2) = 0 ∧ win1_8.index t (1 : Fin 2) = t.val) :=
  (by decide +kernel : ∀ t : Fin grid1.N, _)

/-! ## The input windows' blocks as entries of their arrays -/

/-- The input window's block is the input array. -/
theorem input_at (c : Dev nD) (t : Fin cfg1.N) (p : Fin 64) (k : Fin 4096) :
    (iblk1 V c 0 t : Vec Ideal S64x4096 .f32) (ix2 p k) = (V c main_arg0 : S64x4096.Idx → EReal) (ix2 p k) := by
  obtain ⟨⟨e0, e1⟩, -⟩ := index_facts t
  unfold iblk1
  rw [View.read_apply]
  show V c main_arg0 _ = V c main_arg0 _
  congr 1
  funext a
  apply Fin.ext
  match a with
  | ⟨0, _⟩ => show win1_0.index t 0 * 64 + 1 * p.val = p.val; rw [e0]; omega
  | ⟨1, _⟩ => show win1_0.index t 1 * 4096 + 1 * k.val = k.val; rw [e1]; omega

/-- The presynaptic-trace window's block is the array the first region wrote. -/
theorem pre_at (c : Dev nD) (t : Fin cfg1.N) (b : Fin 64) (k : Fin 4096) :
    (iblk1 V c 1 t : Vec Ideal S64x4096 .f32) (ix2 b k) = (V c main_v0 : S64x4096.Idx → EReal) (ix2 b k) := by
  obtain ⟨-, ⟨e0, e1⟩, -⟩ := index_facts t
  unfold iblk1
  rw [View.read_apply]
  show V c main_v0 _ = V c main_v0 _
  congr 1
  funext a
  apply Fin.ext
  match a with
  | ⟨0, _⟩ => show win1_1.index t 0 * 64 + 1 * b.val = b.val; rw [e0]; omega
  | ⟨1, _⟩ => show win1_1.index t 1 * 4096 + 1 * k.val = k.val; rw [e1]; omega

/-- The weight window's block at point `t` is the tile's rows of the weight array. -/
theorem weight_rows_at (c : Dev nD) (t : Fin cfg1.N) (q : Fin 128) (k : Fin 4096) :
    (iblk1 V c 2 t : Vec Ideal S128x4096 .f32) (ix2 q k) = (V c main_arg1 : S1024x4096.Idx → EReal) (ix2 (neuron t q) k) := by
  obtain ⟨-, -, ⟨e0, e1⟩, -⟩ := index_facts t
  unfold iblk1
  rw [View.read_apply]
  show V c main_arg1 _ = V c main_arg1 _
  congr 1
  funext a
  apply Fin.ext
  match a with
  | ⟨0, _⟩ => show win1_2.index t 0 * 128 + 1 * q.val = t.val * 128 + q.val; rw [e0]; omega
  | ⟨1, _⟩ => show win1_2.index t 1 * 4096 + 1 * k.val = k.val; rw [e1]; omega

/-- The membrane window's block at point `t` is the tile's columns of the membrane array. -/
theorem membrane_at (c : Dev nD) (t : Fin cfg1.N) (p : Fin 64) (q : Fin 128) :
    (iblk1 V c 3 t : Vec Ideal S64x128 .f32) (ix2 p q) = (V c main_arg2 : S64x1024.Idx → EReal) (ix2 p (neuron t q)) := by
  obtain ⟨-, -, -, ⟨e0, e1⟩, -⟩ := index_facts t
  unfold iblk1
  rw [View.read_apply]
  show V c main_arg2 _ = V c main_arg2 _
  congr 1
  funext a
  apply Fin.ext
  match a with
  | ⟨0, _⟩ => show win1_3.index t 0 * 64 + 1 * p.val = p.val; rw [e0]; omega
  | ⟨1, _⟩ => show win1_3.index t 1 * 128 + 1 * q.val = t.val * 128 + q.val; rw [e1]; omega

/-- The postsynaptic-trace window's block at point `t` is the tile's entries of the trace vector. -/
theorem post_at (c : Dev nD) (t : Fin cfg1.N) (q : Fin 128) :
    (iblk1 V c 4 t : Vec Ideal S128 .f32) (ix1 q) = (V c main_arg4 : S1024.Idx → EReal) (ix1 (neuron t q)) := by
  obtain ⟨-, -, -, -, e0, -⟩ := index_facts t
  unfold iblk1
  rw [View.read_apply]
  show V c main_arg4 _ = V c main_arg4 _
  congr 1
  funext a
  apply Fin.ext
  match a with
  | ⟨0, _⟩ => show win1_4.index t 0 * 128 + 1 * q.val = t.val * 128 + q.val; rw [e0]; omega

/-! ## Where the output windows' blocks sit -/

theorem spikes_block_at (t : Fin cfg1.N) (p : Fin 64) (q : Fin 128) :
    ((cfg1.win 5).blk t).view.emb (ix2 p q) = (ix2 p (neuron t q) : S64x1024.Idx) := by
  obtain ⟨-, -, -, -, -, ⟨e0, e1⟩, -⟩ := index_facts t
  funext a
  apply Fin.ext
  match a with
  | ⟨0, _⟩ => show win1_5.index t 0 * 64 + 1 * p.val = p.val; rw [e0]; omega
  | ⟨1, _⟩ => show win1_5.index t 1 * 128 + 1 * q.val = t.val * 128 + q.val; rw [e1]; omega

theorem reset_block_at (t : Fin cfg1.N) (p : Fin 64) (q : Fin 128) :
    ((cfg1.win 6).blk t).view.emb (ix2 p q) = (ix2 p (neuron t q) : S64x1024.Idx) := by
  obtain ⟨-, -, -, -, -, -, ⟨e0, e1⟩, -⟩ := index_facts t
  funext a
  apply Fin.ext
  match a with
  | ⟨0, _⟩ => show win1_6.index t 0 * 64 + 1 * p.val = p.val; rw [e0]; omega
  | ⟨1, _⟩ => show win1_6.index t 1 * 128 + 1 * q.val = t.val * 128 + q.val; rw [e1]; omega

theorem weight_block_at (t : Fin cfg1.N) (q : Fin 128) (k : Fin 4096) :
    ((cfg1.win 7).blk t).view.emb (ix2 q k) = (ix2 (neuron t q) k : S1024x4096.Idx) := by
  obtain ⟨-, -, -, -, -, -, -, ⟨e0, e1⟩, -⟩ := index_facts t
  funext a
  apply Fin.ext
  match a with
  | ⟨0, _⟩ => show win1_7.index t 0 * 128 + 1 * q.val = t.val * 128 + q.val; rw [e0]; omega
  | ⟨1, _⟩ => show win1_7.index t 1 * 4096 + 1 * k.val = k.val; rw [e1]; omega

theorem postTrace_block_at (t : Fin cfg1.N) (p : Fin 64) (q : Fin 128) :
    ((cfg1.win 8).blk t).view.emb (ix2 p q) = (ix2 p (neuron t q) : S64x1024.Idx) := by
  obtain ⟨-, -, -, -, -, -, -, -, ⟨e0, e1⟩⟩ := index_facts t
  funext a
  apply Fin.ext
  match a with
  | ⟨0, _⟩ => show win1_8.index t 0 * 64 + 1 * p.val = p.val; rw [e0]; omega
  | ⟨1, _⟩ => show win1_8.index t 1 * 128 + 1 * q.val = t.val * 128 + q.val; rw [e1]; omega

/-! ## The tile's stores are the whole-array functions at the tile's neurons -/

/-- The integrated potential of tile `t` at `(p, q)` is the layer's potential at batch entry `p`, neuron `128 t + q`. -/
theorem potential_tile (c : Dev nD) (t : Fin cfg1.N) (p : Fin 64) (q : Fin 128) :
    k1_pay1 (F := Ideal) (iblk1 V c 0 t) (iblk1 V c 2 t) (iblk1 V c 3 t) (ix2 p q)
      = potential (V c main_arg0) (V c main_arg1) (V c main_arg2) (ix2 p (neuron t q)) := by
  refine (Pay.potential_at (iblk1 V c 0 t) (iblk1 V c 2 t) (iblk1 V c 3 t) p q).trans ?_
  rw [membrane_at V c t p q]
  refine congrArg (_ + ·) (Finset.sum_congr rfl fun k _ => ?_)
  rw [input_at V c t p k, weight_rows_at V c t q k]

theorem spikes_tile (c : Dev nD) (t : Fin cfg1.N) (p : Fin 64) (q : Fin 128) :
    k1_pay2 (F := Ideal) (iblk1 V c 0 t) (iblk1 V c 2 t) (iblk1 V c 3 t) (ix2 p q)
      = spikes (V c main_arg0) (V c main_arg1) (V c main_arg2) (ix2 p (neuron t q)) := by
  refine (Pay.spikes_at (iblk1 V c 0 t) (iblk1 V c 2 t) (iblk1 V c 3 t) p q).trans ?_
  rw [potential_tile V c t p q]
  rfl

theorem reset_tile (c : Dev nD) (t : Fin cfg1.N) (p : Fin 64) (q : Fin 128) :
    k1_pay3 (F := Ideal) (iblk1 V c 0 t) (iblk1 V c 2 t) (iblk1 V c 3 t) (ix2 p q)
      = potentialAfter (V c main_arg0) (V c main_arg1) (V c main_arg2) (ix2 p (neuron t q)) := by
  refine (Pay.reset_at (iblk1 V c 0 t) (iblk1 V c 2 t) (iblk1 V c 3 t) p q).trans ?_
  rw [spikes_tile V c t p q, potential_tile V c t p q]
  rfl

theorem postTrace_tile (c : Dev nD) (t : Fin cfg1.N) (p : Fin 64) (q : Fin 128) :
    k1_pay4 (F := Ideal) (iblk1 V c 0 t) (iblk1 V c 2 t) (iblk1 V c 3 t) (iblk1 V c 4 t) (ix2 p q)
      = postTrace (V c main_arg0) (V c main_arg1) (V c main_arg2) (V c main_arg4) (ix2 p (neuron t q)) := by
  refine (Pay.postTrace_at (iblk1 V c 0 t) (iblk1 V c 2 t) (iblk1 V c 3 t) (iblk1 V c 4 t) p q).trans ?_
  rw [post_at V c t q, spikes_tile V c t p q]
  rfl

/-- The tile's updated weights: the learning rate multiplies the batch sum from the right in the body and from the left
    in the layer's formula; the product of extended reals commutes. -/
theorem weight_tile (c : Dev nD) (t : Fin cfg1.N) (q : Fin 128) (k : Fin 4096) :
    k1_pay5 (F := Ideal) (iblk1 V c 0 t) (iblk1 V c 2 t) (iblk1 V c 3 t) (iblk1 V c 4 t) (iblk1 V c 1 t) (ix2 q k)
      = weightFrom (V c main_v0) (V c main_arg0) (V c main_arg1) (V c main_arg2) (V c main_arg4) (ix2 (neuron t q) k) := by
  refine (Pay.weight_at (iblk1 V c 0 t) (iblk1 V c 2 t) (iblk1 V c 3 t) (iblk1 V c 4 t) (iblk1 V c 1 t) q k).trans ?_
  have hs : (∑ b : Fin 64, k1_pay4 (F := Ideal) (iblk1 V c 0 t) (iblk1 V c 2 t) (iblk1 V c 3 t) (iblk1 V c 4 t) (ix2 b q)
        * (iblk1 V c 1 t : Vec Ideal S64x4096 .f32) (ix2 b k))
      = ∑ b : Fin 64, postTrace (V c main_arg0) (V c main_arg1) (V c main_arg2) (V c main_arg4) (ix2 b (neuron t q))
        * (V c main_v0 : S64x4096.Idx → EReal) (ix2 b k) :=
    Finset.sum_congr rfl fun b _ => by rw [postTrace_tile V c t b q, pre_at V c t b k]
  rw [hs, weight_rows_at V c t q k, mul_comm _ rate]
  rfl

/-! ## What each point writes back -/

theorem flushed_spikes (c : Dev nD) (t : Fin cfg1.N) (hf : (cfg1.win 5).flush t = true) :
    (dat1 V c).flushed 5 t
      = ((cfg1.win 5).blk t).view.read (Elt Ideal) (spikes (V c main_arg0) (V c main_arg1) (V c main_arg2)) := by
  show (cfg1.win 5).cut (grid1.coords t) ((dat1 V c).after 5 t) = _
  rw [after1_5]
  unfold out1_5
  rw [View.canon_unit_zero zero2]
  simp only [View.ld_unit_zero (S := S64x4096) zero2, View.ld_unit_zero (S := S128x4096) zero2, View.ld_unit_zero (S := S64x128) zero2]
  funext j
  obtain ⟨p, q, rfl⟩ : ∃ (p : Fin 64) (q : Fin 128), j = ix2 p q := ⟨j 0, j 1, eq_ix2 j⟩
  show k1_pay2 (F := Ideal) (iblk1 V c 0 t) (iblk1 V c 2 t) (iblk1 V c 3 t) (ix2 p q)
    = spikes (V c main_arg0) (V c main_arg1) (V c main_arg2) (((cfg1.win 5).blk t).view.emb (ix2 p q))
  rw [spikes_block_at t p q]
  exact spikes_tile V c t p q

theorem flushed_reset (c : Dev nD) (t : Fin cfg1.N) (hf : (cfg1.win 6).flush t = true) :
    (dat1 V c).flushed 6 t
      = ((cfg1.win 6).blk t).view.read (Elt Ideal) (potentialAfter (V c main_arg0) (V c main_arg1) (V c main_arg2)) := by
  show (cfg1.win 6).cut (grid1.coords t) ((dat1 V c).after 6 t) = _
  rw [after1_6]
  unfold out1_6
  rw [View.canon_unit_zero zero2]
  simp only [View.ld_unit_zero (S := S64x4096) zero2, View.ld_unit_zero (S := S128x4096) zero2, View.ld_unit_zero (S := S64x128) zero2]
  funext j
  obtain ⟨p, q, rfl⟩ : ∃ (p : Fin 64) (q : Fin 128), j = ix2 p q := ⟨j 0, j 1, eq_ix2 j⟩
  show k1_pay3 (F := Ideal) (iblk1 V c 0 t) (iblk1 V c 2 t) (iblk1 V c 3 t) (ix2 p q)
    = potentialAfter (V c main_arg0) (V c main_arg1) (V c main_arg2) (((cfg1.win 6).blk t).view.emb (ix2 p q))
  rw [reset_block_at t p q]
  exact reset_tile V c t p q

theorem flushed_weight (c : Dev nD) (t : Fin cfg1.N) (hf : (cfg1.win 7).flush t = true) :
    (dat1 V c).flushed 7 t
      = ((cfg1.win 7).blk t).view.read (Elt Ideal)
          (weightFrom (V c main_v0) (V c main_arg0) (V c main_arg1) (V c main_arg2) (V c main_arg4)) := by
  show (cfg1.win 7).cut (grid1.coords t) ((dat1 V c).after 7 t) = _
  rw [after1_7]
  unfold out1_7
  rw [View.canon_unit_zero zero2]
  simp only [View.ld_unit_zero (S := S64x4096) zero2, View.ld_unit_zero (S := S128x4096) zero2, View.ld_unit_zero (S := S64x128) zero2,
    View.ld_unit_zero (S := S128) zero1]
  funext j
  obtain ⟨q, k, rfl⟩ : ∃ (q : Fin 128) (k : Fin 4096), j = ix2 q k := ⟨j 0, j 1, eq_ix2 j⟩
  show k1_pay5 (F := Ideal) (iblk1 V c 0 t) (iblk1 V c 2 t) (iblk1 V c 3 t) (iblk1 V c 4 t) (iblk1 V c 1 t) (ix2 q k)
    = weightFrom (V c main_v0) (V c main_arg0) (V c main_arg1) (V c main_arg2) (V c main_arg4) (((cfg1.win 7).blk t).view.emb (ix2 q k))
  rw [weight_block_at t q k]
  exact weight_tile V c t q k

theorem flushed_postTrace (c : Dev nD) (t : Fin cfg1.N) (hf : (cfg1.win 8).flush t = true) :
    (dat1 V c).flushed 8 t
      = ((cfg1.win 8).blk t).view.read (Elt Ideal)
          (postTrace (V c main_arg0) (V c main_arg1) (V c main_arg2) (V c main_arg4)) := by
  show (cfg1.win 8).cut (grid1.coords t) ((dat1 V c).after 8 t) = _
  rw [after1_8]
  unfold out1_8
  rw [View.canon_unit_zero zero2]
  simp only [View.ld_unit_zero (S := S64x4096) zero2, View.ld_unit_zero (S := S128x4096) zero2, View.ld_unit_zero (S := S64x128) zero2,
    View.ld_unit_zero (S := S128) zero1]
  funext j
  obtain ⟨p, q, rfl⟩ : ∃ (p : Fin 64) (q : Fin 128), j = ix2 p q := ⟨j 0, j 1, eq_ix2 j⟩
  show k1_pay4 (F := Ideal) (iblk1 V c 0 t) (iblk1 V c 2 t) (iblk1 V c 3 t) (iblk1 V c 4 t) (ix2 p q)
    = postTrace (V c main_arg0) (V c main_arg1) (V c main_arg2) (V c main_arg4) (((cfg1.win 8).blk t).view.emb (ix2 p q))
  rw [postTrace_block_at t p q]
  exact postTrace_tile V c t p q

/-! ## The output arrays after the region: the eight tiles cover each array -/

/-- The spike array after the region: entry `(p, o)` lies in tile `o / 128`. -/
theorem final_spikes (c : Dev nD) :
    (dat1 V c).arrAt 5 cfg1.N = spikes (V c main_arg0) (V c main_arg1) (V c main_arg2) :=
  (dat1 V c).arrAt_eq_of_cover 5 (spikes (V c main_arg0) (V c main_arg1) (V c main_arg2)) (flushed_spikes V c) fun i => by
    have h0 : (i 0 : Nat) < 64 := (i 0).isLt
    have h1 : (i 1 : Nat) < 1024 := (i 1).isLt
    let t : Fin cfg1.N := ⟨(i 1 : Nat) / 128, by rw [show cfg1.N = 8 from N_1]; omega⟩
    have ht : t.val = (i 1 : Nat) / 128 := rfl
    obtain ⟨-, -, -, -, -, ⟨e0, e1⟩, -⟩ := index_facts t
    refine ⟨t, flush1_5 t, ?_⟩
    show i ∈ ((View.whole main_v1_0).slice (win1_5.rect t)).set
    rw [View.set_slice_whole, Rect.mem_set_unit]
    intro a
    match a with
    | ⟨0, _⟩ => show win1_5.index t 0 * 64 ≤ (i 0 : Nat) ∧ (i 0 : Nat) < win1_5.index t 0 * 64 + 64
                rw [e0]; omega
    | ⟨1, _⟩ => show win1_5.index t 1 * 128 ≤ (i 1 : Nat) ∧ (i 1 : Nat) < win1_5.index t 1 * 128 + 128
                rw [e1, ht]; omega

/-- The membrane array after the region. -/
theorem final_reset (c : Dev nD) :
    (dat1 V c).arrAt 6 cfg1.N = potentialAfter (V c main_arg0) (V c main_arg1) (V c main_arg2) :=
  (dat1 V c).arrAt_eq_of_cover 6 (potentialAfter (V c main_arg0) (V c main_arg1) (V c main_arg2)) (flushed_reset V c) fun i => by
    have h0 : (i 0 : Nat) < 64 := (i 0).isLt
    have h1 : (i 1 : Nat) < 1024 := (i 1).isLt
    let t : Fin cfg1.N := ⟨(i 1 : Nat) / 128, by rw [show cfg1.N = 8 from N_1]; omega⟩
    have ht : t.val = (i 1 : Nat) / 128 := rfl
    obtain ⟨-, -, -, -, -, -, ⟨e0, e1⟩, -⟩ := index_facts t
    refine ⟨t, flush1_6 t, ?_⟩
    show i ∈ ((View.whole main_v1_1).slice (win1_6.rect t)).set
    rw [View.set_slice_whole, Rect.mem_set_unit]
    intro a
    match a with
    | ⟨0, _⟩ => show win1_6.index t 0 * 64 ≤ (i 0 : Nat) ∧ (i 0 : Nat) < win1_6.index t 0 * 64 + 64
                rw [e0]; omega
    | ⟨1, _⟩ => show win1_6.index t 1 * 128 ≤ (i 1 : Nat) ∧ (i 1 : Nat) < win1_6.index t 1 * 128 + 128
                rw [e1, ht]; omega

/-- The weight array after the region: row `o` lies in tile `o / 128`. -/
theorem final_weight (c : Dev nD) :
    (dat1 V c).arrAt 7 cfg1.N = weightFrom (V c main_v0) (V c main_arg0) (V c main_arg1) (V c main_arg2) (V c main_arg4) :=
  (dat1 V c).arrAt_eq_of_cover 7 (weightFrom (V c main_v0) (V c main_arg0) (V c main_arg1) (V c main_arg2) (V c main_arg4))
    (flushed_weight V c) fun i => by
    have h0 : (i 0 : Nat) < 1024 := (i 0).isLt
    have h1 : (i 1 : Nat) < 4096 := (i 1).isLt
    let t : Fin cfg1.N := ⟨(i 0 : Nat) / 128, by rw [show cfg1.N = 8 from N_1]; omega⟩
    have ht : t.val = (i 0 : Nat) / 128 := rfl
    obtain ⟨-, -, -, -, -, -, -, ⟨e0, e1⟩, -⟩ := index_facts t
    refine ⟨t, flush1_7 t, ?_⟩
    show i ∈ ((View.whole main_v1_2).slice (win1_7.rect t)).set
    rw [View.set_slice_whole, Rect.mem_set_unit]
    intro a
    match a with
    | ⟨0, _⟩ => show win1_7.index t 0 * 128 ≤ (i 0 : Nat) ∧ (i 0 : Nat) < win1_7.index t 0 * 128 + 128
                rw [e0, ht]; omega
    | ⟨1, _⟩ => show win1_7.index t 1 * 4096 ≤ (i 1 : Nat) ∧ (i 1 : Nat) < win1_7.index t 1 * 4096 + 4096
                rw [e1]; omega

/-- The postsynaptic trace array after the region. -/
theorem final_postTrace (c : Dev nD) :
    (dat1 V c).arrAt 8 cfg1.N = postTrace (V c main_arg0) (V c main_arg1) (V c main_arg2) (V c main_arg4) :=
  (dat1 V c).arrAt_eq_of_cover 8 (postTrace (V c main_arg0) (V c main_arg1) (V c main_arg2) (V c main_arg4)) (flushed_postTrace V c) fun i => by
    have h0 : (i 0 : Nat) < 64 := (i 0).isLt
    have h1 : (i 1 : Nat) < 1024 := (i 1).isLt
    let t : Fin cfg1.N := ⟨(i 1 : Nat) / 128, by rw [show cfg1.N = 8 from N_1]; omega⟩
    have ht : t.val = (i 1 : Nat) / 128 := rfl
    obtain ⟨-, -, -, -, -, -, -, -, ⟨e0, e1⟩⟩ := index_facts t
    refine ⟨t, flush1_8 t, ?_⟩
    show i ∈ ((View.whole main_v1_3).slice (win1_8.rect t)).set
    rw [View.set_slice_whole, Rect.mem_set_unit]
    intro a
    match a with
    | ⟨0, _⟩ => show win1_8.index t 0 * 64 ≤ (i 0 : Nat) ∧ (i 0 : Nat) < win1_8.index t 0 * 64 + 64
                rw [e0]; omega
    | ⟨1, _⟩ => show win1_8.index t 1 * 128 ≤ (i 1 : Nat) ∧ (i 1 : Nat) < win1_8.index t 1 * 128 + 128
                rw [e1, ht]; omega

end Cert.KernelIdeal.Region1

end
-- ==== Proof.KernelValue.lean ====
/-
  The kernel's run, read as values: the five result arrays end at the layer's functions of the argument arrays.

  The program is two kernel regions. The contents of the buffers at the end of the run are those at the first region's
  entry (the launch memory) with the first region's output replaced by the presynaptic trace, and then the second
  region's four outputs replaced by the spikes, the reset potential, the updated weights and the postsynaptic trace of
  what the second region found: the arguments as launched, and the presynaptic trace where the first region left it.
-/
import proofs.«172224_j65652870086857_1_alg».proof.Proof.ValueRun
import proofs.«172224_j65652870086857_1_alg».proof.Proof.Region0Value
import proofs.«172224_j65652870086857_1_alg».proof.Proof.Region1Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Synapse

variable (m : (ℓ : Loc nD τ sig) → Buf (Elt Ideal) ℓ) (ρ : Dev nD → PrngReg)

/-! ## What the second region finds: the arguments as launched, the first region's output at the presynaptic trace -/

theorem entry_input (c : Dev nD) : V1 m ρ c main_arg0 = m ((c : Thread nD τ).loc main_arg0) :=
  ((W1_arr m ρ c 0).trans (((dat0 (V0 m ρ) c).arrAt_in 0 rfl _).trans (A_eq0 (V0 m ρ) c 0))).trans rfl

theorem entry_weight (c : Dev nD) : V1 m ρ c main_arg1 = m ((c : Thread nD τ).loc main_arg1) :=
  (W1_of_ne m ρ c main_arg1 (by decide)).trans rfl

theorem entry_membrane (c : Dev nD) : V1 m ρ c main_arg2 = m ((c : Thread nD τ).loc main_arg2) :=
  (W1_of_ne m ρ c main_arg2 (by decide)).trans rfl

theorem entry_post (c : Dev nD) : V1 m ρ c main_arg4 = m ((c : Thread nD τ).loc main_arg4) :=
  (W1_of_ne m ρ c main_arg4 (by decide)).trans rfl

theorem entry_pre (c : Dev nD) : V1 m ρ c main_v0 = preTrace (m ((c : Thread nD τ).loc main_arg0)) (m ((c : Thread nD τ).loc main_arg3)) :=
  (W1_arr m ρ c 2).trans (Region0.final_preTrace (V0 m ρ) c)

/-! ## The five results at the end of the run -/

theorem result_spikes (c : Dev nD) :
    W2 m ρ c (Proc.devRef .tc main_v1_0) = spikes (m ((c : Thread nD τ).loc main_arg0)) (m ((c : Thread nD τ).loc main_arg1)) (m ((c : Thread nD τ).loc main_arg2)) := by
  refine ((W2_arr m ρ c 5).trans (Region1.final_spikes (V1 m ρ) c)).trans ?_
  rw [entry_input m ρ c, entry_weight m ρ c, entry_membrane m ρ c]

theorem result_reset (c : Dev nD) :
    W2 m ρ c (Proc.devRef .tc main_v1_1) = potentialAfter (m ((c : Thread nD τ).loc main_arg0)) (m ((c : Thread nD τ).loc main_arg1)) (m ((c : Thread nD τ).loc main_arg2)) := by
  refine ((W2_arr m ρ c 6).trans (Region1.final_reset (V1 m ρ) c)).trans ?_
  rw [entry_input m ρ c, entry_weight m ρ c, entry_membrane m ρ c]

theorem result_weight (c : Dev nD) :
    W2 m ρ c (Proc.devRef .tc main_v1_2) = weightAfter (m ((c : Thread nD τ).loc main_arg0)) (m ((c : Thread nD τ).loc main_arg1)) (m ((c : Thread nD τ).loc main_arg2)) (m ((c : Thread nD τ).loc main_arg3)) (m ((c : Thread nD τ).loc main_arg4)) := by
  refine ((W2_arr m ρ c 7).trans (Region1.final_weight (V1 m ρ) c)).trans ?_
  rw [entry_pre m ρ c, entry_input m ρ c, entry_weight m ρ c, entry_membrane m ρ c, entry_post m ρ c]
  rfl

/-- The presynaptic trace is the first region's output, which the second region only reads. -/
theorem result_pre (c : Dev nD) :
    W2 m ρ c (Proc.devRef .tc main_v0) = preTrace (m ((c : Thread nD τ).loc main_arg0)) (m ((c : Thread nD τ).loc main_arg3)) :=
  ((W2_arr m ρ c 1).trans (((dat1 (V1 m ρ) c).arrAt_in 1 rfl _).trans (A_eq1 (V1 m ρ) c 1))).trans (entry_pre m ρ c)

theorem result_postTrace (c : Dev nD) :
    W2 m ρ c (Proc.devRef .tc main_v1_3) = postTrace (m ((c : Thread nD τ).loc main_arg0)) (m ((c : Thread nD τ).loc main_arg1)) (m ((c : Thread nD τ).loc main_arg2)) (m ((c : Thread nD τ).loc main_arg4)) := by
  refine ((W2_arr m ρ c 8).trans (Region1.final_postTrace (V1 m ρ) c)).trans ?_
  rw [entry_input m ρ c, entry_weight m ρ c, entry_membrane m ρ c, entry_post m ρ c]

/-! ## The run -/

/-- Every weakly fair execution of the kernel program terminates with the five results at the layer's functions of the
    arguments and the arguments unchanged. -/
theorem run : θ_run defs (onTc (τ := τ) (main (F := Ideal))) ⟨m, fun _ => 0, ρ⟩ (fun r => ∀ c : Dev nD,
      r.2.mem ((c.tc : Thread nD τ).loc main_v1_0) = spikes (m ((c : Thread nD τ).loc main_arg0)) (m ((c : Thread nD τ).loc main_arg1)) (m ((c : Thread nD τ).loc main_arg2))
      ∧ r.2.mem ((c.tc : Thread nD τ).loc main_v1_1) = potentialAfter (m ((c : Thread nD τ).loc main_arg0)) (m ((c : Thread nD τ).loc main_arg1)) (m ((c : Thread nD τ).loc main_arg2))
      ∧ r.2.mem ((c.tc : Thread nD τ).loc main_v1_2) = weightAfter (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v0) = preTrace (m ((c : Thread nD τ).loc main_arg0)) (m ((c : Thread nD τ).loc main_arg3))
      ∧ r.2.mem ((c.tc : Thread nD τ).loc main_v1_3) = postTrace (m ((c : Thread nD τ).loc main_arg0)) (m ((c : Thread nD τ).loc main_arg1)) (m ((c : Thread nD τ).loc main_arg2)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c).1.trans (result_spikes m ρ c),
       (h c).2.1.trans (result_reset m ρ c),
       (h c).2.2.1.trans (result_weight m ρ c),
       (h c).2.2.2.1.trans (result_pre m ρ c),
       (h c).2.2.2.2.1.trans (result_postTrace m ρ c),
       (h c).2.2.2.2.2⟩)
    (GenRun.run_results m ρ)

end Cert.KernelIdeal.KValue

end
-- ==== Proof.RefValue.lean ====
/-
  The reference's five results are the layer's functions of the arguments.

  The reference's run gives each result as the composed term of its host operations; read one operation at a time at an
  index, the term is the formula of the specification: the weighted input is the product with the transposed weight array,
  a sum over the 4096 inputs; the two traces broadcast one row over the batch; the weight update contracts the batch axis
  of the two trace arrays.
-/
import proofs.«172224_j65652870086857_1_alg».proof.Proof.RefReadP
import proofs.«172224_j65652870086857_1_alg».proof.Proof.Spec

noncomputable section

namespace Cert.ReferenceIdeal.RefValue

open Cert.ReferenceIdeal Cert.ReferenceIdeal.ReadP Cert.Synapse
open Idealize.ShloMosaic Idealize.ShloMosaic.ValueIdx
open scoped BigOperators

/-- The presynaptic trace. -/
theorem preTrace_eq (x0 : FVec Ideal S64x4096 .f32) (x3 : FVec Ideal S4096 .f32) :
    val_main_v16 (F := Ideal) x0 x3 = preTrace x0 x3 := by
  funext i
  simp only [val_main_v16_apply, val_main_call1_v4_apply, val_main_call1_v3_apply, val_main_cst_5_apply,
    val_main_call1_v2_apply, val_main_call1_v1_apply, val_main_call1_v0_apply, val_main_cst_4_apply, val_main_v15_apply,
    val_main_v14_apply, val_main_v13_apply, val_main_v12_apply, val_main_v11_apply, val_main_cst_3_apply]
  have e : idx_main_v13 (idx_main_v14 i) = ix1 (i 1) := funext fun a => Fin.ext (by match a with | ⟨0, _⟩ => rfl)
  rw [e]
  rfl

/-- The integrated potential: the host's product against the transposed weights is the sum over the inputs. -/
theorem potential_eq (x0 : FVec Ideal S64x4096 .f32) (x1 : FVec Ideal S1024x4096 .f32) (x2 : FVec Ideal S64x1024 .f32) :
    val_main_v4 (F := Ideal) x0 x1 x2 = potential x0 x1 x2 := by
  funext i
  simp only [val_main_v4_apply, val_main_v3_apply, val_main_v2_apply, val_main_cst_apply, val_main_v1_apply, val_main_v0_apply]
  have el : ∀ k : Fin 4096, lidx_main_v1 i k = ix2 (i 0) k := fun k => funext fun a => Fin.ext (by
    match a with
    | ⟨0, _⟩ => rfl
    | ⟨1, _⟩ => rfl)
  have er : ∀ k : Fin 4096, idx_main_v0 (ridx_main_v1 i k) = ix2 (i 1) k := fun k => funext fun a => Fin.ext (by
    match a with
    | ⟨0, _⟩ => rfl
    | ⟨1, _⟩ => rfl)
  simp only [el, er]
  rfl

/-- The spikes. -/
theorem spikes_eq (x0 : FVec Ideal S64x4096 .f32) (x1 : FVec Ideal S1024x4096 .f32) (x2 : FVec Ideal S64x1024 .f32) :
    val_main_v7 (F := Ideal) x0 x1 x2 = spikes x0 x1 x2 := by
  funext i
  simp only [val_main_v7_apply, val_main_v6_apply, val_main_v5_apply, val_main_cst_0_apply, potential_eq]
  rfl

/-- The potential after the reset. -/
theorem potentialAfter_eq (x0 : FVec Ideal S64x4096 .f32) (x1 : FVec Ideal S1024x4096 .f32) (x2 : FVec Ideal S64x1024 .f32) :
    val_main_v10 (F := Ideal) x0 x1 x2 = potentialAfter x0 x1 x2 := by
  funext i
  simp only [val_main_v10_apply, val_main_v9_apply, val_main_v8_apply, val_main_cst_1_apply, val_main_call0_v1_apply,
    val_main_call0_v0_apply, val_main_cst_2_apply, spikes_eq, potential_eq]
  rfl

/-- The postsynaptic trace. -/
theorem postTrace_eq (x0 : FVec Ideal S64x4096 .f32) (x1 : FVec Ideal S1024x4096 .f32) (x2 : FVec Ideal S64x1024 .f32)
    (x4 : FVec Ideal S1024 .f32) : val_main_v22 (F := Ideal) x0 x1 x2 x4 = postTrace x0 x1 x2 x4 := by
  funext i
  simp only [val_main_v22_apply, val_main_call2_v4_apply, val_main_call2_v3_apply, val_main_cst_8_apply,
    val_main_call2_v2_apply, val_main_call2_v1_apply, val_main_call2_v0_apply, val_main_cst_7_apply, val_main_v21_apply,
    val_main_v20_apply, val_main_v19_apply, val_main_v18_apply, val_main_v17_apply, val_main_cst_6_apply, spikes_eq]
  have e : idx_main_v19 (idx_main_v20 i) = ix1 (i 1) := funext fun a => Fin.ext (by match a with | ⟨0, _⟩ => rfl)
  rw [e]
  rfl

/-- The updated weights: the host's product contracts the batch axis of the two trace arrays. -/
theorem weightAfter_eq (x0 : FVec Ideal S64x4096 .f32) (x1 : FVec Ideal S1024x4096 .f32) (x2 : FVec Ideal S64x1024 .f32)
    (x3 : FVec Ideal S4096 .f32) (x4 : FVec Ideal S1024 .f32) :
    val_main_v27 (F := Ideal) x0 x1 x2 x3 x4 = weightAfter x0 x1 x2 x3 x4 := by
  funext i
  simp only [val_main_v27_apply, val_main_call3_v4_apply, val_main_call3_v3_apply, val_main_cst_11_apply,
    val_main_call3_v2_apply, val_main_call3_v1_apply, val_main_call3_v0_apply, val_main_cst_10_apply, val_main_v26_apply,
    val_main_v25_apply, val_main_v24_apply, val_main_cst_9_apply, val_main_v23_apply, postTrace_eq, preTrace_eq]
  have el : ∀ b : Fin 64, lidx_main_v23 i b = ix2 b (i 0) := fun b => funext fun a => Fin.ext (by
    match a with
    | ⟨0, _⟩ => rfl
    | ⟨1, _⟩ => rfl)
  have er : ∀ b : Fin 64, ridx_main_v23 i b = ix2 b (i 1) := fun b => funext fun a => Fin.ext (by
    match a with
    | ⟨0, _⟩ => rfl
    | ⟨1, _⟩ => rfl)
  simp only [el, er]
  rfl

end Cert.ReferenceIdeal.RefValue

end
-- ==== Proof.lean ====
/-
  One step of a leaky integrate-and-fire layer with a trace-based plasticity update, computed by a tiled two-call kernel,
  against its plain formulation.

  The kernel first writes the clipped presynaptic trace (decayed old trace, one row for every batch entry, plus the input)
  and then, tile by tile of 128 output neurons, the spikes (the integrated potential `mem · 0.98 + x · wᵀ` compared with the
  threshold), the potential reset to zero where a neuron spiked, the clipped postsynaptic trace, and the weights moved by
  the learning rate times the batch sum of post-trace × pre-trace and clipped. The reference computes the same five arrays
  with whole-array operations.

  Over the extended reals the two agree index by index with no appeal to finiteness: a tile's rows of the weighted input
  are the rows of the whole product, every sum is over the same index set in the same arrangement, the changes of float
  format are the identity, the firing bit widened and read signed is the bit read unsigned, and the only algebraic law
  used is commutativity of one product (the learning rate multiplies the batch sum from the right in the kernel and from
  the left in the reference). So the precondition is never opened.

  The frames of the two kernel programs are the generated ones; the reference's frame is its run with the results
  dropped; the idealization rewrote no operation, so `preserves` is trivial.
-/
import proofs.«172224_j65652870086857_1_alg».proof.Defs
import proofs.«172224_j65652870086857_1_alg».proof.Proof.Gen.Kernel
import proofs.«172224_j65652870086857_1_alg».proof.Proof.Gen.Kernel.Frame
import proofs.«172224_j65652870086857_1_alg».proof.Proof.Gen.KernelIdeal
import proofs.«172224_j65652870086857_1_alg».proof.Proof.Gen.KernelIdeal.Frame
import proofs.«172224_j65652870086857_1_alg».proof.Proof.Gen.ReferenceIdeal
import proofs.«172224_j65652870086857_1_alg».proof.Proof.Gen.Pre_finite_inputs
import proofs.«172224_j65652870086857_1_alg».proof.Proof.KernelValue
import proofs.«172224_j65652870086857_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run terminates with its results named and its arguments unchanged; the frame keeps the latter. -/
theorem frame_reference : Cert.frame_ReferenceIdeal := fun m ρ _ =>
  (θ_run Cert.ReferenceIdeal.defs _ _).mono (fun _ h c => (h c).2.2.2.2.2)
    (Cert.ReferenceIdeal.ValueP.run (F := Ideal) m ρ)

theorem preserves : Cert.preserves_Kernel_KernelIdeal := trivial

/-- Both programs end with the spikes, the reset potential, the updated weights, the presynaptic trace and the
    postsynaptic trace of the arguments: the kernel by its two regions read as values, the reference by its host
    operations read one at a time; the arguments agree by hypothesis. -/
theorem algebraic : Cert.algebraic_KernelIdeal_ReferenceIdeal := by
  intro m ρ m' ρ' _ hagree
  refine ⟨_, _, _, _, _, Cert.KernelIdeal.KValue.run m ρ, ?_⟩
  refine (θ_run Cert.ReferenceIdeal.defs _ _).mono (fun _ h c => ?_)
    (Cert.ReferenceIdeal.ValueP.run (F := Ideal) m' ρ')
  obtain ⟨h7, h10, h27, h16, h22, hargs⟩ := h c
  obtain ⟨a0, a1, a2, a3, a4⟩ := hagree c
  refine ⟨h7.trans ?_, h10.trans ?_, h27.trans ?_, h16.trans ?_, h22.trans ?_, hargs⟩
  · rw [Cert.ReferenceIdeal.ReadP.val_main_v7_eq, Cert.ReferenceIdeal.RefValue.spikes_eq, a0, a1, a2]
  · rw [Cert.ReferenceIdeal.ReadP.val_main_v10_eq, Cert.ReferenceIdeal.RefValue.potentialAfter_eq, a0, a1, a2]
  · rw [Cert.ReferenceIdeal.ReadP.val_main_v27_eq, Cert.ReferenceIdeal.RefValue.weightAfter_eq, a0, a1, a2, a3, a4]
  · rw [Cert.ReferenceIdeal.ReadP.val_main_v16_eq, Cert.ReferenceIdeal.RefValue.preTrace_eq, a0, a3]
  · rw [Cert.ReferenceIdeal.ReadP.val_main_v22_eq, Cert.ReferenceIdeal.RefValue.postTrace_eq, a0, a1, a2, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
